-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x4096 : Shape := ⟨3, ![2, 4096, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S_ : Shape := ⟨0, ![]⟩

class Facts : Prop where
  bcast_S_S2x4096x4096 : S_.BroadcastsInDim S2x4096x4096 (![] : Fin 0 → Fin S2x4096x4096.rank)
  reducesTo_S2x4096x4096_S_d0_1_2 : S2x4096x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part1 {F : FTy → Type} [FloatOps F] (main_arg4 : FVec F S4096x16 .f32) (main_v13 : IVec S_ 1) (main_v16 : IVec S16x4096 1) : IVec S_ 1 :=
  let main_c_5 : IVec S_ 1 := constantI S_ 1 1#1
  let main_v17 : IVec S_ 1 := (fun x v => Host.reduce IntOp.andi x v reducesTo_S16x4096_S_d0_1 h_S_) main_v16 main_c_5
  let main_v18 : IVec S_ 1 := andi main_v13 main_v17
  let main_v19 : FVec F S4096x16 .f32 := Host.absf main_arg4
  let main_cst_6 : FVec F S_ .f32 := constant S_ .f32 0x7F800000#32
  let main_v20 : FVec F S4096x16 .f32 := broadcastInDim S4096x16 ![] bcast_S_S4096x16 main_cst_6
  let main_v21 : IVec S4096x16 1 := cmpf .olt main_v19 main_v20
  let main_c_7 : IVec S_ 1 := constantI S_ 1 1#1
  let main_v22 : IVec S_ 1 := (fun x v => Host.reduce IntOp.andi x v reducesTo_S4096x16_S_d0_1 h_S_) main_v21 main_c_7
  let main_v23 : IVec S_ 1 := andi main_v18 main_v22
  main_v23

def fn {F : FTy → Type} [FloatOps F] (main_arg0 : FVec F S2x4096x4096 .f32) (main_arg1 : FVec F S4096x4096 .f32) (main_arg2 : FVec F S4096 .f32) (main_arg3 : FVec F S16x4096 .f32) (main_arg4 : FVec F S4096x16 .f32) : IVec S_ 1 :=
  let main_v0 : FVec F S2x4096x4096 .f32 := Host.absf main_arg0
  let main_cst : FVec F S_ .f32 := constant S_ .f32 0x7F800000#32
  let main_v1 : FVec F S2x4096x4096 .f32 := broadcastInDim S2x4096x4096 ![] bcast_S_S2x4096x4096 main_cst
  let main_v2 : IVec S2x4096x4096 1 := cmpf .olt main_v0 main_v1
  let main_c : IVec S_ 1 := constantI S_ 1 1#1
  let main_v3 : IVec S_ 1 := (fun x v => Host.reduce IntOp.andi x v reducesTo_S2x4096x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S16x4096 .f32 := Host.absf main_arg3
  let main_cst_4 : FVec F S_ .f32 := constant S_ .f32 0x7F800000#32
  let main_v15 : FVec F S16x4096 .f32 := broadcastInDim S16x4096 ![] bcast_S_S16x4096 main_cst_4
  let main_v16 : IVec S16x4096 1 := cmpf .olt main_v14 main_v15
  fn_part1 (F := F) main_arg4 main_v13 main_v16
-- ==== Kernel.lean ====
abbrev S2x4096x4096 : Shape := ⟨3, ![2, 4096, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S8192x4096 : Shape := ⟨2, ![8192, 4096]⟩
abbrev S1x4096 : Shape := ⟨2, ![1, 4096]⟩
abbrev S2048x256 : Shape := ⟨2, ![2048, 256]⟩
abbrev S16x256 : Shape := ⟨2, ![16, 256]⟩
abbrev S2048x16 : Shape := ⟨2, ![2048, 16]⟩
abbrev S1x2048 : Shape := ⟨2, ![1, 2048]⟩
abbrev S2048x2048 : Shape := ⟨2, ![2048, 2048]⟩

abbrev nBuf : Space → Nat
  | .hbm => 9
  | .vmem => 13
  | .smem => 0
  | _ => 0

abbrev bufTy : (tb : Table) → Fin (tcTables nBuf tb) → BufTy
  | .hbm, ⟨0, _⟩ => ⟨S2x4096x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S8192x4096, .f32⟩
  | .hbm, ⟨6, _⟩ => ⟨S1x4096, .f32⟩
  | .hbm, ⟨7, _⟩ => ⟨S8192x4096, .f32⟩
  | .hbm, ⟨8, _⟩ => ⟨S2x4096x4096, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S16x256, .f32⟩
  | .local _ .vmem, ⟨5, _⟩ => ⟨S16x256, .f32⟩
  | .local _ .vmem, ⟨6, _⟩ => ⟨S2048x16, .f32⟩
  | .local _ .vmem, ⟨7, _⟩ => ⟨S2048x16, .f32⟩
  | .local _ .vmem, ⟨8, _⟩ => ⟨S1x2048, .f32⟩
  | .local _ .vmem, ⟨9, _⟩ => ⟨S1x2048, .f32⟩
  | .local _ .vmem, ⟨10, _⟩ => ⟨S2048x2048, .f32⟩
  | .local _ .vmem, ⟨11, _⟩ => ⟨S2048x2048, .f32⟩
  | .local _ .vmem, ⟨12, _⟩ => ⟨S2048x2048, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 2, 16], ![false, false, false]⟩

def k0_cond2 (i : grid0.Coords) : BitVec 1 :=
  let arg2 : BitVec 32 := BitVec.ofNat 32 (i 2).val
  let c15_i32 : BitVec 32 := 15#32
  let v20 : BitVec 1 := Scalar.cmpi .eq arg2 c15_i32
  let v21 : BitVec 32 := Scalar.extui v20
  let c0_i32_13 : BitVec 32 := 0#32
  let v22 : BitVec 1 := Scalar.cmpi .ne v21 c0_i32_13
  v22

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S16x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S2048x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S2048x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S2x4096x4096_S8192x4096 : S2x4096x4096.ShapeCasts S8192x4096
  shapeCasts_S4096_S1x4096 : S4096.ShapeCasts S1x4096
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  bitsLt_bf16_f32 : FTy.bits .bf16 < FTy.bits .f32
  inb_S16x256_S16x256_0_0 : ∀ a, (![0, 0] : Fin 2 → Nat) a + S16x256.size a ≤ S16x256.size a
  h_S16x256 : 0 < S16x256.numel
  inb_S2048x16_S2048x16_0_0 : ∀ a, (![0, 0] : Fin 2 → Nat) a + S2048x16.size a ≤ S2048x16.size a
  h_S2048x16 : 0 < S2048x16.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S2048x2048 : S1x2048.Broadcasts S2048x2048
  shapeCasts_S8192x4096_S2x4096x4096 : S8192x4096.ShapeCasts S2x4096x4096
  dot_S2048x16_S16x256_S2048x256_1_0_0_1_n_n_wf : DotDims.WF S2048x16 S16x256 S2048x256 [1] [0] [0] [1] [] []
  dot_S2048x256_S2048x256_S2048x2048_1_1_0_0_n_n_wf : DotDims.WF S2048x256 S2048x256 S2048x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x4096.size a
  hwx0_0 : ∀ i : grid0.Coords, EltTy.bits .f32 = 32 ∨ (Rect.block (s := S8192x4096) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S4096x4096.size a
  hwx0_1 : ∀ i : grid0.Coords, EltTy.bits .f32 = 32 ∨ (Rect.block (s := S4096x4096) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x256.size a ≤ S16x4096.size a
  hwx0_2 : ∀ i : grid0.Coords, EltTy.bits .f32 = 32 ∨ (Rect.block (s := S16x4096) S16x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x16.size a ≤ S4096x16.size a
  hwx0_3 : ∀ i : grid0.Coords, EltTy.bits .f32 = 32 ∨ (Rect.block (s := S4096x16) S2048x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x4096.size a
  hwx0_4 : ∀ i : grid0.Coords, EltTy.bits .f32 = 32 ∨ (Rect.block (s := S1x4096) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x2048.size a ≤ S8192x4096.size a
  hwx0_5 : ∀ i : grid0.Coords, EltTy.bits .f32 = 32 ∨ (Rect.block (s := S8192x4096) S2048x2048.size (cc0_transform_5 i) (hinb0_5 i)).WholeWords (EltTy.packing .f32)

variable [Facts₀]

def dot_S2048x16_S16x256_S2048x256_1_0_0_1_n_n : DotDims S2048x16 S16x256 S2048x256 where
  lhsContracting := [1]
  rhsContracting := [0]
  lhsNonContracting := [0]
  rhsNonContracting := [1]
  lhsBatch := []
  rhsBatch := []
  wf := dot_S2048x16_S16x256_S2048x256_1_0_0_1_n_n_wf
def dot_S2048x256_S2048x256_S2048x2048_1_1_0_0_n_n : DotDims S2048x256 S2048x256 S2048x2048 where
  lhsContracting := [1]
  rhsContracting := [1]
  lhsNonContracting := [0]
  rhsNonContracting := [0]
  lhsBatch := []
  rhsBatch := []
  wf := dot_S2048x256_S2048x256_S2048x2048_1_1_0_0_n_n_wf

abbrev win0_0 : Pipeline.Window sig grid0 :=
  Pipeline.Window.ofSpec (Memref.whole main_v0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S16x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S2048x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S2048x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S2x4096x4096 : Shape := ⟨3, ![2, 4096, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S1x1x4096 : Shape := ⟨3, ![1, 1, 4096]⟩
abbrev S2x4096x16 : Shape := ⟨3, ![2, 4096, 16]⟩

abbrev nBuf : Space → Nat
  | .hbm => 12
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S2x4096x4096, .f32⟩
  | .hbm, ⟨6, _⟩ => ⟨S1x1x4096, .f32⟩
  | .hbm, ⟨7, _⟩ => ⟨S2x4096x4096, .f32⟩
  | .hbm, ⟨8, _⟩ => ⟨S2x4096x4096, .f32⟩
  | .hbm, ⟨9, _⟩ => ⟨S2x4096x16, .f32⟩
  | .hbm, ⟨10, _⟩ => ⟨S2x4096x4096, .f32⟩
  | .hbm, ⟨11, _⟩ => ⟨S2x4096x4096, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S2x4096x4096_0_1_2 : S1x1x4096.BroadcastsInDim S2x4096x4096 (![0, 1, 2] : Fin 3 → Fin S2x4096x4096.rank)
  dot_S2x4096x4096_S4096x4096_S2x4096x4096_2_1_01_0_n_n_wf : DotDims.WF S2x4096x4096 S4096x4096 S2x4096x4096 [2] [1] [0, 1] [0] [] []
  dot_S2x4096x4096_S16x4096_S2x4096x16_2_1_01_0_n_n_wf : DotDims.WF S2x4096x4096 S16x4096 S2x4096x16 [2] [1] [0, 1] [0] [] []
  dot_S2x4096x16_S4096x16_S2x4096x4096_2_1_01_0_n_n_wf : DotDims.WF S2x4096x16 S4096x16 S2x4096x4096 [2] [1] [0, 1] [0] [] []

variable [Facts₀]

def dot_S2x4096x4096_S4096x4096_S2x4096x4096_2_1_01_0_n_n : DotDims S2x4096x4096 S4096x4096 S2x4096x4096 where
  lhsContracting := [2]
  rhsContracting := [1]
  lhsNonContracting := [0, 1]
  rhsNonContracting := [0]
  lhsBatch := []
  rhsBatch := []
  wf := dot_S2x4096x4096_S4096x4096_S2x4096x4096_2_1_01_0_n_n_wf
def dot_S2x4096x4096_S16x4096_S2x4096x16_2_1_01_0_n_n : DotDims S2x4096x4096 S16x4096 S2x4096x16 where
  lhsContracting := [2]
  rhsContracting := [1]
  lhsNonContracting := [0, 1]
  rhsNonContracting := [0]
  lhsBatch := []
  rhsBatch := []
  wf := dot_S2x4096x4096_S16x4096_S2x4096x16_2_1_01_0_n_n_wf
def dot_S2x4096x16_S4096x16_S2x4096x4096_2_1_01_0_n_n : DotDims S2x4096x16 S4096x16 S2x4096x4096 where
  lhsContracting := [2]
  rhsContracting := [1]
  lhsNonContracting := [0, 1]
  rhsNonContracting := [0]
  lhsBatch := []
  rhsBatch := []
  wf := dot_S2x4096x16_S4096x16_S2x4096x4096_2_1_01_0_n_n_wf

class Facts : Prop extends Facts₀ where

variable [Facts]
-- ==== Proof.Pieces.lean ====
/-
  What one run of the kernel body leaves behind, case by case, as values.

  The body keeps a [2048, 2048] accumulator in a scratch buffer across the grid's innermost axis (the sixteen slices of
  the contraction axis). With x0, x1, x2, x3 the point's blocks of x, W, A and B, one run replaces the accumulator acc by
  the update (acc + x0 · (x1 + x3 · x2)ᵀ), the body's second stored value. Three cases:
  * at a first slice the body first stores the zero block, so the update is taken of zero;
  * at a middle slice the update is taken of what the point before left;
  * at a last slice likewise, and then the output block receives the accumulator plus the bias row x4, broadcast down
    the rows (the body's third stored value).
  Each statement holds for every float instance: it only says which stored value a buffer ends with.
-/
import proofs.«167484_j45260365365949_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Acc

open Cert.KernelIdeal Cert.KernelIdeal.Gen

variable {F : FTy → Type} [FloatOps F]

theorem hz : (![0, 0] : Fin 2 → Nat) = fun _ => 0 := funext fun a => by fin_cases a <;> rfl

/-- First slice: the accumulator ends at the update of the zero block. -/
theorem scratch_first (c : Dev nD) (i : grid0.Coords) (a3 : Memref sig .tc .vmem S2048x256 .f32) (h3 : a3.IsWhole) (a4 : Memref sig .tc .vmem S2048x256 .f32) (h4 : a4.IsWhole) (a5 : Memref sig .tc .vmem S16x256 .f32) (h5 : a5.IsWhole) (a6 : Memref sig .tc .vmem S2048x16 .f32) (h6 : a6.IsWhole) (a7 : Memref sig .tc .vmem S1x2048 .f32) (h7 : a7.IsWhole) (a8 : Memref sig .tc .vmem S2048x2048 .f32) (h8 : a8.IsWhole) (a9 : Memref sig .tc .vmem S2048x2048 .f32) (h9 : a9.IsWhole) (hc0 : cond0_0 i) (hc1 : ¬cond0_1 i)
    (x0 : Vec F S2048x256 .f32) (x1 : Vec F S2048x256 .f32) (x2 : Vec F S16x256 .f32) (x3 : Vec F S2048x16 .f32) (x4 : Vec F S1x2048 .f32) :
    sout0_A_0 c i a3 h3 a4 h4 a5 h5 a6 h6 a7 h7 a8 h8 a9 h9 hc0 hc1 x0 x1 x2 x3 x4 = k0_pay2 x0 x1 x2 x3 k0_pay1 := by
  unfold sout0_A_0
  rw [View.read_writes_eq_canon _ _ _ (scover0_A_0 c i a3 h3 a4 h4 a5 h5 a6 h6 a7 h7 a8 h8 a9 h9 hc0 hc1 x0 x1 x2 x3 x4)]
  unfold kernelRun0_A
  dsimp only
  sl_unfold_words
  rw [View.canon_cons_unit_zero (S := S2048x2048) hz, View.readCov_unit_zero (S := S2048x2048) _ hz]
  simp only [View.readAt_eq_ld, h3.read_unread, h4.read_unread, h5.read_unread, h6.read_unread, h7.read_unread, h9.read_unread, View.ld_unit_zero (S := S2048x256) hz, View.ld_unit_zero (S := S16x256) hz, View.ld_unit_zero (S := S2048x16) hz, View.ld_unit_zero (S := S1x2048) hz, View.ld_unit_zero (S := S2048x2048) hz]

/-- Middle slice: the accumulator ends at the update of what it held. -/
theorem scratch_middle (c : Dev nD) (i : grid0.Coords) (a3 : Memref sig .tc .vmem S2048x256 .f32) (h3 : a3.IsWhole) (a4 : Memref sig .tc .vmem S2048x256 .f32) (h4 : a4.IsWhole) (a5 : Memref sig .tc .vmem S16x256 .f32) (h5 : a5.IsWhole) (a6 : Memref sig .tc .vmem S2048x16 .f32) (h6 : a6.IsWhole) (a7 : Memref sig .tc .vmem S1x2048 .f32) (h7 : a7.IsWhole) (a8 : Memref sig .tc .vmem S2048x2048 .f32) (h8 : a8.IsWhole) (a9 : Memref sig .tc .vmem S2048x2048 .f32) (h9 : a9.IsWhole) (hc0 : ¬cond0_0 i) (hc1 : ¬cond0_1 i)
    (x0 : Vec F S2048x256 .f32) (x1 : Vec F S2048x256 .f32) (x2 : Vec F S16x256 .f32) (x3 : Vec F S2048x16 .f32) (x4 : Vec F S1x2048 .f32) (acc : Vec F S2048x2048 .f32) :
    sout0_B_0 c i a3 h3 a4 h4 a5 h5 a6 h6 a7 h7 a8 h8 a9 h9 hc0 hc1 x0 x1 x2 x3 x4 acc = k0_pay2 x0 x1 x2 x3 acc := by
  unfold sout0_B_0
  rw [View.read_writes_eq_canon _ _ _ (scover0_B_0 c i a3 h3 a4 h4 a5 h5 a6 h6 a7 h7 a8 h8 a9 h9 hc0 hc1 x0 x1 x2 x3 x4 acc)]
  unfold kernelRun0_B
  dsimp only
  sl_unfold_words
  rw [View.canon_unit_zero hz]
  simp only [View.readAt_eq_ld, h3.read_unread, h4.read_unread, h5.read_unread, h6.read_unread, h7.read_unread, h9.read_unread, View.ld_unit_zero (S := S2048x256) hz, View.ld_unit_zero (S := S16x256) hz, View.ld_unit_zero (S := S2048x16) hz, View.ld_unit_zero (S := S1x2048) hz, View.ld_unit_zero (S := S2048x2048) hz]

/-- Last slice: the accumulator ends at the update of what it held … -/
theorem scratch_last (c : Dev nD) (i : grid0.Coords) (a3 : Memref sig .tc .vmem S2048x256 .f32) (h3 : a3.IsWhole) (a4 : Memref sig .tc .vmem S2048x256 .f32) (h4 : a4.IsWhole) (a5 : Memref sig .tc .vmem S16x256 .f32) (h5 : a5.IsWhole) (a6 : Memref sig .tc .vmem S2048x16 .f32) (h6 : a6.IsWhole) (a7 : Memref sig .tc .vmem S1x2048 .f32) (h7 : a7.IsWhole) (a8 : Memref sig .tc .vmem S2048x2048 .f32) (h8 : a8.IsWhole) (a9 : Memref sig .tc .vmem S2048x2048 .f32) (h9 : a9.IsWhole) (hc0 : ¬cond0_0 i) (hc1 : cond0_1 i)
    (x0 : Vec F S2048x256 .f32) (x1 : Vec F S2048x256 .f32) (x2 : Vec F S16x256 .f32) (x3 : Vec F S2048x16 .f32) (x4 : Vec F S1x2048 .f32) (acc : Vec F S2048x2048 .f32) :
    sout0_C_0 c i a3 h3 a4 h4 a5 h5 a6 h6 a7 h7 a8 h8 a9 h9 hc0 hc1 x0 x1 x2 x3 x4 acc = k0_pay2 x0 x1 x2 x3 acc := by
  unfold sout0_C_0
  rw [View.read_writes_eq_canon _ _ _ (scover0_C_0 c i a3 h3 a4 h4 a5 h5 a6 h6 a7 h7 a8 h8 a9 h9 hc0 hc1 x0 x1 x2 x3 x4 acc)]
  unfold kernelRun0_C
  dsimp only
  sl_unfold_words
  rw [View.canon_unit_zero hz]
  simp only [View.readAt_eq_ld, h3.read_unread, h4.read_unread, h5.read_unread, h6.read_unread, h7.read_unread, h9.read_unread, View.ld_unit_zero (S := S2048x256) hz, View.ld_unit_zero (S := S16x256) hz, View.ld_unit_zero (S := S2048x16) hz, View.ld_unit_zero (S := S1x2048) hz, View.ld_unit_zero (S := S2048x2048) hz]

/-- … and the output block at that accumulator plus the bias row. -/
theorem out_last (c : Dev nD) (i : grid0.Coords) (a3 : Memref sig .tc .vmem S2048x256 .f32) (h3 : a3.IsWhole) (a4 : Memref sig .tc .vmem S2048x256 .f32) (h4 : a4.IsWhole) (a5 : Memref sig .tc .vmem S16x256 .f32) (h5 : a5.IsWhole) (a6 : Memref sig .tc .vmem S2048x16 .f32) (h6 : a6.IsWhole) (a7 : Memref sig .tc .vmem S1x2048 .f32) (h7 : a7.IsWhole) (a8 : Memref sig .tc .vmem S2048x2048 .f32) (h8 : a8.IsWhole) (a9 : Memref sig .tc .vmem S2048x2048 .f32) (h9 : a9.IsWhole) (hc0 : ¬cond0_0 i) (hc1 : cond0_1 i)
    (x0 : Vec F S2048x256 .f32) (x1 : Vec F S2048x256 .f32) (x2 : Vec F S16x256 .f32) (x3 : Vec F S2048x16 .f32) (x4 : Vec F S1x2048 .f32) (acc : Vec F S2048x2048 .f32) :
    out0_C_5 c i a3 h3 a4 h4 a5 h5 a6 h6 a7 h7 a8 h8 a9 h9 hc0 hc1 x0 x1 x2 x3 x4 acc = k0_pay3 (k0_pay2 x0 x1 x2 x3 acc) x4 := by
  unfold out0_C_5
  rw [View.read_writes_eq_canon _ _ _ (cover0_C_5 c i a3 h3 a4 h4 a5 h5 a6 h6 a7 h7 a8 h8 a9 h9 hc0 hc1 x0 x1 x2 x3 x4 acc)]
  unfold kernelRun0_C
  dsimp only
  sl_unfold_words
  rw [View.canon_unit_zero hz]
  simp only [View.readCov_unit_zero (S := S2048x2048) _ hz, View.readAt_eq_ld, h3.read_unread, h4.read_unread, h5.read_unread, h6.read_unread, h7.read_unread, h9.read_unread, View.ld_unit_zero (S := S2048x256) hz, View.ld_unit_zero (S := S16x256) hz, View.ld_unit_zero (S := S2048x16) hz, View.ld_unit_zero (S := S1x2048) hz, View.ld_unit_zero (S := S2048x2048) hz]

end Cert.KernelIdeal.Acc

end
-- ==== Proof.Chain.lean ====
/-
  The accumulator across the grid, for every float instance.

  The grid has 128 points, the innermost axis (the sixteen slices of the contraction axis) running fastest, so point n
  works on slice n mod 16 of output block n / 16. The scratch accumulator after point n is defined here by recursion on n:
  at a first slice (n mod 16 = 0) the update of the zero block by point n's blocks, otherwise the update of what point
  n - 1 left. By induction on n this is what the frame's point-by-point contents say the scratch holds, and at a last slice
  (n mod 16 = 15) the output block holds that accumulator plus the bias row.
-/
import proofs.«167484_j45260365365949_1_alg».proof.Proof.Pieces

set_option maxRecDepth 16384

noncomputable section

open Idealize.ShloMosaic Idealize.ShloMosaic.TcCoe Idealize.SL.Sem

namespace Cert.KernelIdeal.Acc

open Cert.KernelIdeal Cert.KernelIdeal.Gen

variable {F : FTy → Type} [FloatOps F]
variable (m : (ℓ : Loc nD τ sig) → Buf (Elt F) ℓ)

/-- Point t's block of x (rows of x2, a slice of the contraction axis), -/
abbrev xblk (c : Dev nD) (t : Fin cfg0.N) : Vec F S2048x256 .f32 := iblk m c 0 t
/-- of W (rows of W, the same slice), -/
abbrev wblk (c : Dev nD) (t : Fin cfg0.N) : Vec F S2048x256 .f32 := iblk m c 1 t
/-- of A (all sixteen rows, the same slice), -/
abbrev ablk (c : Dev nD) (t : Fin cfg0.N) : Vec F S16x256 .f32 := iblk m c 2 t
/-- of B (rows of B, all sixteen columns), -/
abbrev bblk (c : Dev nD) (t : Fin cfg0.N) : Vec F S2048x16 .f32 := iblk m c 3 t
/-- and of the bias row. -/
abbrev biasblk (c : Dev nD) (t : Fin cfg0.N) : Vec F S1x2048 .f32 := iblk m c 4 t

/-- The accumulator after point n. -/
def accAfter (c : Dev nD) : (n : ℕ) → n < cfg0.N → Vec F S2048x2048 .f32
  | 0, h => k0_pay2 (xblk m c ⟨0, h⟩) (wblk m c ⟨0, h⟩) (ablk m c ⟨0, h⟩) (bblk m c ⟨0, h⟩) k0_pay1
  | n + 1, h => k0_pay2 (xblk m c ⟨n + 1, h⟩) (wblk m c ⟨n + 1, h⟩) (ablk m c ⟨n + 1, h⟩) (bblk m c ⟨n + 1, h⟩)
      (if (n + 1) % 16 = 0 then k0_pay1 else accAfter c n (Nat.lt_of_succ_lt h))

theorem accAfter_zero (c : Dev nD) (h : 0 < cfg0.N) :
    accAfter m c 0 h = k0_pay2 (xblk m c ⟨0, h⟩) (wblk m c ⟨0, h⟩) (ablk m c ⟨0, h⟩) (bblk m c ⟨0, h⟩) k0_pay1 := rfl

theorem accAfter_succ (c : Dev nD) (n : ℕ) (h : n + 1 < cfg0.N) :
    accAfter m c (n + 1) h = k0_pay2 (xblk m c ⟨n + 1, h⟩) (wblk m c ⟨n + 1, h⟩) (ablk m c ⟨n + 1, h⟩) (bblk m c ⟨n + 1, h⟩)
      (if (n + 1) % 16 = 0 then k0_pay1 else accAfter m c n (Nat.lt_of_succ_lt h)) := rfl

/-- The scratch after point n is the accumulator after point n. -/
theorem scratch_eq (c : Dev nD) : ∀ (n : ℕ) (h : n < cfg0.N), (outsAt0 m c n h).2 = accAfter m c n h
  | 0, h => by
    rw [outsAt0_A m c ⟨0, h⟩ (Nat.zero_mod _) (by show ¬(0 % 16 = 15); decide)]
    dsimp only
    exact scratch_first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) scM0_0 (Memref.isWhole_whole _) _ _ (iblk m c 0 ⟨0, h⟩) (iblk m c 1 ⟨0, h⟩) (iblk m c 2 ⟨0, h⟩) (iblk m c 3 ⟨0, h⟩) (iblk m c 4 ⟨0, h⟩)
  | n + 1, h => by
    rw [accAfter_succ]
    by_cases h0 : (n + 1) % 16 = 0
    · have h1 : ¬(n + 1) % 16 = 15 := by omega
      rw [outsAt0_A m c ⟨n + 1, h⟩ h0 h1, if_pos h0]
      dsimp only
      exact scratch_first c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) _ _ (iblk m c 0 ⟨n + 1, h⟩) (iblk m c 1 ⟨n + 1, h⟩) (iblk m c 2 ⟨n + 1, h⟩) (iblk m c 3 ⟨n + 1, h⟩) (iblk m c 4 ⟨n + 1, h⟩)
    · rw [if_neg h0, ← scratch_eq c n (Nat.lt_of_succ_lt h)]
      by_cases h1 : (n + 1) % 16 = 15
      · rw [outsAt0_C m c ⟨n + 1, h⟩ h0 h1]
        dsimp only
        exact scratch_last c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) _ _ (iblk m c 0 ⟨n + 1, h⟩) (iblk m c 1 ⟨n + 1, h⟩) (iblk m c 2 ⟨n + 1, h⟩) (iblk m c 3 ⟨n + 1, h⟩) (iblk m c 4 ⟨n + 1, h⟩) (outsAt0 m c n (Nat.lt_of_succ_lt h)).2
      · rw [outsAt0_B m c ⟨n + 1, h⟩ h0 h1]
        dsimp only
        exact scratch_middle c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) _ _ (iblk m c 0 ⟨n + 1, h⟩) (iblk m c 1 ⟨n + 1, h⟩) (iblk m c 2 ⟨n + 1, h⟩) (iblk m c 3 ⟨n + 1, h⟩) (iblk m c 4 ⟨n + 1, h⟩) (outsAt0 m c n (Nat.lt_of_succ_lt h)).2

/-- At a last slice the output block holds the accumulator after that point plus the bias row. -/
theorem out_eq (c : Dev nD) (t : Fin cfg0.N) (h1 : t.val % 16 = 15) :
    (outsAt0 m c t.val t.isLt).1 = k0_pay3 (accAfter m c t.val t.isLt) (biasblk m c t) := by
  have h0 : ¬t.val % 16 = 0 := by omega
  obtain ⟨n, hn⟩ := t
  cases n with
  | zero => exact absurd h1 (by show ¬(0 % 16 = 15); decide)
  | succ n =>
    rw [accAfter_succ, if_neg h0, ← scratch_eq m c n (Nat.lt_of_succ_lt hn), outsAt0_C m c ⟨n + 1, hn⟩ h0 h1]
    dsimp only
    exact out_last c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) _ _ (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 m c n (Nat.lt_of_succ_lt hn)).2

end Cert.KernelIdeal.Acc

end
-- ==== Proof.Blocks.lean ====
/-
  Where a point's blocks sit in the whole arrays, for every float instance.

  Point t of the 4 × 2 × 16 grid has coordinates (t / 32, t / 16 mod 2, t mod 16): row block, column block, slice. Its
  block of x2 = x reshaped to [8192, 4096] is rows 2048·(t/32) + p, columns 256·(t mod 16) + j; of W rows
  2048·(t/16 mod 2) + q and the same columns; of A all rows and the same columns; of B rows 2048·(t/16 mod 2) + q, all
  sixteen columns; of the bias row columns 2048·(t/16 mod 2) + q; and the output block is rows 2048·(t/32) + p, columns
  2048·(t/16 mod 2) + q. The two reshapes before the region are row-major re-indexings: x2(4096·b + s, i) = x(b, s, i) and
  the bias row's entry (0, o) is bias(o).
-/
import proofs.«167484_j45260365365949_1_alg».proof.Proof.Chain
import Idealize.ShloMosaic.Lib.ValueIdx
import Idealize.ShloMosaic.Lib.StableHlo.Run

set_option maxRecDepth 16384

noncomputable section

open Idealize.ShloMosaic Idealize.ShloMosaic.TcCoe Idealize.SL.Sem Idealize.ShloMosaic.ValueIdx

namespace Cert.KernelIdeal.Acc

open Cert.KernelIdeal Cert.KernelIdeal.Gen

variable {F : FTy → Type} [FloatOps F]
variable (m : (ℓ : Loc nD τ sig) → Buf (Elt F) ℓ)

/-- The printed index maps in closed form, decided over the grid's 128 points. -/
theorem idx_facts : ∀ t : Fin cfg0.N,
    win0_0.index t (0 : Fin 2) = t.val / 32 ∧ win0_0.index t (1 : Fin 2) = t.val % 16
    ∧ win0_1.index t (0 : Fin 2) = t.val / 16 % 2 ∧ win0_1.index t (1 : Fin 2) = t.val % 16
    ∧ win0_2.index t (0 : Fin 2) = 0 ∧ win0_2.index t (1 : Fin 2) = t.val % 16
    ∧ win0_3.index t (0 : Fin 2) = t.val / 16 % 2 ∧ win0_3.index t (1 : Fin 2) = 0
    ∧ win0_4.index t (0 : Fin 2) = 0 ∧ win0_4.index t (1 : Fin 2) = t.val / 16 % 2
    ∧ win0_5.index t (0 : Fin 2) = t.val / 32 ∧ win0_5.index t (1 : Fin 2) = t.val / 16 % 2 :=
  (by decide +kernel : ∀ t : Fin grid0.N, _)

/-- The arrays as the region finds them, at their literal types. -/
abbrev x2arr (c : Dev nD) : Vec F S8192x4096 .f32 := V m c main_v0
abbrev warr (c : Dev nD) : Vec F S4096x4096 .f32 := V m c main_arg1
abbrev aarr (c : Dev nD) : Vec F S16x4096 .f32 := V m c main_arg3
abbrev barr (c : Dev nD) : Vec F S4096x16 .f32 := V m c main_arg4
abbrev biasrow (c : Dev nD) : Vec F S1x4096 .f32 := V m c main_v1

/-- Entry (p, j) of point t's block of x2. -/
theorem xblk_apply (c : Dev nD) (t : Fin cfg0.N) (p : Fin 2048) (j : Fin 256) (P : Fin 8192) (C : Fin 4096)
    (hP : P.val = 2048 * (t.val / 32) + p.val) (hC : C.val = 256 * (t.val % 16) + j.val) :
    xblk m c t (ix2 p j) = x2arr m c (ix2 P C) := by
  obtain ⟨e0, e1, -⟩ := idx_facts t
  have h : ((cfg0.win 0).blk t).view.emb (ix2 p j) = ix2 P C := by
    funext a; apply Fin.ext
    match a with
    | ⟨0, _⟩ => show win0_0.index t (0 : Fin 2) * 2048 + 1 * p.val = P.val; omega
    | ⟨1, _⟩ => show win0_0.index t (1 : Fin 2) * 256 + 1 * j.val = C.val; omega
  show V m c main_v0 (((cfg0.win 0).blk t).view.emb (ix2 p j)) = V m c main_v0 (ix2 P C)
  rw [h]

/-- Entry (q, j) of point t's block of W. -/
theorem wblk_apply (c : Dev nD) (t : Fin cfg0.N) (q : Fin 2048) (j : Fin 256) (Q : Fin 4096) (C : Fin 4096)
    (hQ : Q.val = 2048 * (t.val / 16 % 2) + q.val) (hC : C.val = 256 * (t.val % 16) + j.val) :
    wblk m c t (ix2 q j) = warr m c (ix2 Q C) := by
  obtain ⟨-, -, e0, e1, -⟩ := idx_facts t
  have h : ((cfg0.win 1).blk t).view.emb (ix2 q j) = ix2 Q C := by
    funext a; apply Fin.ext
    match a with
    | ⟨0, _⟩ => show win0_1.index t (0 : Fin 2) * 2048 + 1 * q.val = Q.val; omega
    | ⟨1, _⟩ => show win0_1.index t (1 : Fin 2) * 256 + 1 * j.val = C.val; omega
  show V m c main_arg1 (((cfg0.win 1).blk t).view.emb (ix2 q j)) = V m c main_arg1 (ix2 Q C)
  rw [h]

/-- Entry (r, j) of point t's block of A. -/
theorem ablk_apply (c : Dev nD) (t : Fin cfg0.N) (r : Fin 16) (j : Fin 256) (C : Fin 4096)
    (hC : C.val = 256 * (t.val % 16) + j.val) :
    ablk m c t (ix2 r j) = aarr m c (ix2 r C) := by
  obtain ⟨-, -, -, -, e0, e1, -⟩ := idx_facts t
  have h : ((cfg0.win 2).blk t).view.emb (ix2 r j) = ix2 r C := by
    funext a; apply Fin.ext
    match a with
    | ⟨0, _⟩ => show win0_2.index t (0 : Fin 2) * 16 + 1 * r.val = r.val; omega
    | ⟨1, _⟩ => show win0_2.index t (1 : Fin 2) * 256 + 1 * j.val = C.val; omega
  show V m c main_arg3 (((cfg0.win 2).blk t).view.emb (ix2 r j)) = V m c main_arg3 (ix2 r C)
  rw [h]

/-- Entry (q, r) of point t's block of B. -/
theorem bblk_apply (c : Dev nD) (t : Fin cfg0.N) (q : Fin 2048) (r : Fin 16) (Q : Fin 4096)
    (hQ : Q.val = 2048 * (t.val / 16 % 2) + q.val) :
    bblk m c t (ix2 q r) = barr m c (ix2 Q r) := by
  obtain ⟨-, -, -, -, -, -, e0, e1, -⟩ := idx_facts t
  have h : ((cfg0.win 3).blk t).view.emb (ix2 q r) = ix2 Q r := by
    funext a; apply Fin.ext
    match a with
    | ⟨0, _⟩ => show win0_3.index t (0 : Fin 2) * 2048 + 1 * q.val = Q.val; omega
    | ⟨1, _⟩ => show win0_3.index t (1 : Fin 2) * 16 + 1 * r.val = r.val; omega
  show V m c main_arg4 (((cfg0.win 3).blk t).view.emb (ix2 q r)) = V m c main_arg4 (ix2 Q r)
  rw [h]

/-- Entry (0, q) of point t's block of the bias row. -/
theorem biasblk_apply (c : Dev nD) (t : Fin cfg0.N) (q : Fin 2048) (Q : Fin 4096)
    (hQ : Q.val = 2048 * (t.val / 16 % 2) + q.val) :
    biasblk m c t (ix2 (0 : Fin 1) q) = biasrow m c (ix2 (0 : Fin 1) Q) := by
  obtain ⟨-, -, -, -, -, -, -, -, e0, e1, -⟩ := idx_facts t
  have h : ((cfg0.win 4).blk t).view.emb (ix2 (0 : Fin 1) q) = ix2 (0 : Fin 1) Q := by
    funext a; apply Fin.ext
    match a with
    | ⟨0, _⟩ => show win0_4.index t (0 : Fin 2) * 1 + 1 * 0 = 0; omega
    | ⟨1, _⟩ => show win0_4.index t (1 : Fin 2) * 2048 + 1 * q.val = Q.val; omega
  show V m c main_v1 (((cfg0.win 4).blk t).view.emb (ix2 (0 : Fin 1) q)) = V m c main_v1 (ix2 (0 : Fin 1) Q)
  rw [h]

/-- The region finds x2 at x reshaped to [8192, 4096] … -/
theorem x2arr_eq (c : Dev nD) :
    x2arr m c = shapeCast S8192x4096 (m ((c : Thread nD τ).loc main_arg0)) shapeCasts_S2x4096x4096_S8192x4096 := by
  show StableHlo.after hostOps0 (fun b => m (c, b)) (Proc.devRef .tc main_v0) = _
  after_results
  rfl

/-- … and the bias row at the bias reshaped to [1, 4096]. -/
theorem biasrow_eq (c : Dev nD) :
    biasrow m c = shapeCast S1x4096 (m ((c : Thread nD τ).loc main_arg2)) shapeCasts_S4096_S1x4096 := by
  show StableHlo.after hostOps0 (fun b => m (c, b)) (Proc.devRef .tc main_v1) = _
  after_results
  rfl

/-- x2 at (4096·b + s, i) is x at (b, s, i). -/
theorem x2arr_apply (c : Dev nD) (b : Fin 2) (s i : Fin 4096) (P : Fin 8192) (hP : P.val = 4096 * b.val + s.val) :
    x2arr m c (ix2 P i) = (m ((c : Thread nD τ).loc main_arg0) : Vec F S2x4096x4096 .f32) (ix3 b s i) := by
  rw [x2arr_eq]
  refine shapeCast_apply _ shapeCasts_S2x4096x4096_S8192x4096 (ix2 P i) (ix3 b s i) ?_
  rw [Shape.rowMajor_val_three, Shape.rowMajor_val_two]
  show (b.val * 4096 + s.val) * 4096 + i.val = P.val * 4096 + i.val
  rw [hP]; ring

/-- The bias row at (0, o) is the bias at o. -/
theorem biasrow_apply (c : Dev nD) (o : Fin 4096) :
    biasrow m c (ix2 (0 : Fin 1) o) = (m ((c : Thread nD τ).loc main_arg2) : Vec F S4096 .f32) (ix1 o) := by
  rw [biasrow_eq]
  refine shapeCast_apply _ shapeCasts_S4096_S1x4096 (ix2 (0 : Fin 1) o) (ix1 o) ?_
  rw [Shape.rowMajor_val_one, Shape.rowMajor_val_two]
  show o.val = 0 * 4096 + o.val
  rw [Nat.zero_mul, Nat.zero_add]

/-- The arguments the region stages directly are as launched. -/
theorem warr_eq (c : Dev nD) : warr m c = m ((c : Thread nD τ).loc main_arg1) := V_main_arg1 m c
theorem aarr_eq (c : Dev nD) : aarr m c = m ((c : Thread nD τ).loc main_arg3) := V_main_arg3 m c
theorem barr_eq (c : Dev nD) : barr m c = m ((c : Thread nD τ).loc main_arg4) := V_main_arg4 m c

end Cert.KernelIdeal.Acc

end
-- ==== Proof.LibOuterDot.lean ====
/-
  Two readings at an index, for any sizes, at the ideal values.

  * A block u of shape [R, n] and a block x of shape [R, m], each given a unit axis, broadcast against each other to
    [R, n, m], multiplied and flattened to [R, n·m]: entry (p, k) is u(p, k / m) · x(p, k % m) — the row-wise
    Kronecker product.
  * A matrix product [M, K] × [K, N] into a zero accumulator: entry (p, q) is Σ over k < K of A(p, k) · B(k, q), a sum
    over Fin K, given where the dimension numbers send an output index and a contraction index.
-/
import Idealize.ShloMosaic.Lib.ValueIdx
import Idealize.ShloMosaic.Lib.Pipeline.Value
import Idealize.ShloMosaic.PureOps.Ideal.Laws

noncomputable section

open scoped BigOperators

namespace Cert.LibOuterDot

open Idealize.ShloMosaic Idealize.ShloMosaic.ValueIdx

/-- The row-wise Kronecker product read at (p, k): u at column k / m times x at column k % m. -/
theorem outer_flat_apply (R n m N : ℕ) (hn : 1 < n) (hm : 1 < m) (hN : N = n * m)
    (u : (⟨2, ![R, n]⟩ : Shape).Idx → EReal) (x : (⟨2, ![R, m]⟩ : Shape).Idx → EReal)
    (h1 : (⟨2, ![R, n]⟩ : Shape).ShapeCasts ⟨3, ![R, n, 1]⟩)
    (h2 : (⟨2, ![R, m]⟩ : Shape).ShapeCasts ⟨3, ![R, 1, m]⟩)
    (h3 : (⟨3, ![R, n, 1]⟩ : Shape).Broadcasts ⟨3, ![R, n, m]⟩)
    (h4 : (⟨3, ![R, 1, m]⟩ : Shape).Broadcasts ⟨3, ![R, n, m]⟩)
    (h5 : (⟨3, ![R, n, m]⟩ : Shape).ShapeCasts ⟨2, ![R, N]⟩)
    (p : Fin R) (k : Fin N) (a : Fin n) (b : Fin m) (ha : a.val = k.val / m) (hb : b.val = k.val % m) :
    shapeCast ⟨2, ![R, N]⟩ (mulf (F := Ideal) (φ := .f32)
        (broadcastTo ⟨3, ![R, n, m]⟩ (shapeCast ⟨3, ![R, n, 1]⟩ u h1) h3)
        (broadcastTo ⟨3, ![R, n, m]⟩ (shapeCast ⟨3, ![R, 1, m]⟩ x h2) h4)) h5 (ix2 p k)
      = u (ix2 p a) * x (ix2 p b) := by
  subst hN
  refine (shapeCast_apply _ h5 (ix2 p k) (ix3 p a b) ?_).trans ?_
  · rw [Shape.rowMajor_val_three, Shape.rowMajor_val_two]
    show (p.val * n + a.val) * m + b.val = p.val * (n * m) + k.val
    have e : k.val / m * m + k.val % m = k.val := Nat.div_add_mod' _ _
    rw [ha, hb, Nat.add_mul, Nat.mul_assoc, Nat.add_assoc, e]
  · rw [mulf_apply]
    congr 1
    · refine (broadcastTo_apply _ h3 (ix3 p a b) (ix3 p a (0 : Fin 1)) ?_).trans ?_
      · intro ax
        match ax with
        | ⟨0, _⟩ =>
          show p.val = if R = 1 then 0 else p.val
          split
          · have := p.isLt; omega
          · rfl
        | ⟨1, _⟩ =>
          show a.val = if n = 1 then 0 else a.val
          rw [if_neg (by omega)]
        | ⟨2, _⟩ => rfl
      · refine shapeCast_apply u h1 _ (ix2 p a) ?_
        rw [Shape.rowMajor_val_three, Shape.rowMajor_val_two]
        show p.val * n + a.val = (p.val * n + a.val) * 1 + 0
        omega
    · refine (broadcastTo_apply _ h4 (ix3 p a b) (ix3 p (0 : Fin 1) b) ?_).trans ?_
      · intro ax
        match ax with
        | ⟨0, _⟩ =>
          show p.val = if R = 1 then 0 else p.val
          split
          · have := p.isLt; omega
          · rfl
        | ⟨1, _⟩ => rfl
        | ⟨2, _⟩ =>
          show b.val = if m = 1 then 0 else b.val
          rw [if_neg (by omega)]
      · refine shapeCast_apply x h2 _ (ix2 p b) ?_
        rw [Shape.rowMajor_val_three, Shape.rowMajor_val_two]
        show p.val * m + b.val = (p.val * 1 + 0) * m + b.val
        rw [Nat.mul_one, Nat.add_zero]

/-- With no batch axes and one free axis a on the left, the left operand's index has the output's coordinate b there,
    b the first output axis. -/
theorem lhs_free_val {sl sr so : Shape} (d : DotDims sl sr so) (a : Fin sl.rank) (b : Fin so.rank)
    (hlb : d.lhsBatch = []) (hln : d.lhsNonContracting = [a]) (hb : b.val = 0) (j : so.Idx) (k : d.contr.Idx) :
    (d.lhsIdx j k a).val = (j b).val := by
  have hnb : a ∉ d.lhsBatch := by rw [hlb]; exact List.not_mem_nil
  have hmn : a ∈ d.lhsNonContracting := by rw [hln]; exact List.mem_singleton.mpr rfl
  unfold DotDims.lhsIdx
  rw [dif_neg hnb, dif_pos hmn]
  simp only [Fin.val_cast]
  have key : ∀ (p q : Nat) (hp : p < so.rank) (hq : q < so.rank), p = q → (j ⟨p, hp⟩).val = (j ⟨q, hq⟩).val :=
    fun p q hp hq h => by subst h; rfl
  exact key _ _ _ b.isLt (by simp [hlb, hln, hb])

/-- With no batch axes, one free axis on the left and one free axis a on the right, the right operand's index has the
    output's coordinate b there, b the second output axis. -/
theorem rhs_free_val {sl sr so : Shape} (d : DotDims sl sr so) (a : Fin sr.rank) (b : Fin so.rank) (a' : Fin sl.rank)
    (hlb : d.lhsBatch = []) (hrb : d.rhsBatch = []) (hln : d.lhsNonContracting = [a']) (hrn : d.rhsNonContracting = [a])
    (hb : b.val = 1) (j : so.Idx) (k : d.contr.Idx) :
    (d.rhsIdx j k a).val = (j b).val := by
  have hnb : a ∉ d.rhsBatch := by rw [hrb]; exact List.not_mem_nil
  have hmn : a ∈ d.rhsNonContracting := by rw [hrn]; exact List.mem_singleton.mpr rfl
  unfold DotDims.rhsIdx
  rw [dif_neg hnb, dif_pos hmn]
  simp only [Fin.val_cast]
  have key : ∀ (p q : Nat) (hp : p < so.rank) (hq : q < so.rank), p = q → (j ⟨p, hp⟩).val = (j ⟨q, hq⟩).val :=
    fun p q hp hq h => by subst h; rfl
  exact key _ _ _ b.isLt (by simp [hlb, hln, hrn, hb])

/-- A matrix product into the zero accumulator read at (p, q), given where the dimension numbers send the indices:
    the sum over k < K of A(p, k) · B(k, q). -/
theorem matmul_zero_ix2_of {M K N : ℕ} {φ₁ φ₂ : FTy}
    (d : DotDims ⟨2, ![M, K]⟩ ⟨2, ![K, N]⟩ ⟨2, ![M, N]⟩) (hr : d.contr.rank = 1) (hs : d.contr.size ⟨0, by omega⟩ = K)
    (l0 : ∀ i q, (d.lhsIdx i q 0).val = (i 0).val) (l1 : ∀ i q, (d.lhsIdx i q 1).val = (q ⟨0, by omega⟩).val)
    (r0 : ∀ i q, (d.rhsIdx i q 0).val = (q ⟨0, by omega⟩).val) (r1 : ∀ i q, (d.rhsIdx i q 1).val = (i 1).val)
    (prec : Option ContractPrecision) (A : FVec Ideal ⟨2, ![M, K]⟩ φ₁) (B : FVec Ideal ⟨2, ![K, N]⟩ φ₂) (p : Fin M) (q : Fin N) :
    matmul d prec A B (constant ⟨2, ![M, N]⟩ .f32 0x00000000#32) (ix2 p q) = ∑ k : Fin K, A (ix2 p k) * B (ix2 k q) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact l0 _ _
    | ⟨1, _⟩ => exact (l1 _ _).trans hk)
  have er : d.rhsIdx (ix2 p q) ((contrEquiv1 d K hr hs).symm k) = ix2 k q := funext fun a => Fin.ext (by
    match a with
    | ⟨0, _⟩ => exact (r0 _ _).trans hk
    | ⟨1, _⟩ => exact r1 _ _)
  rw [el, er]

/-- A plain matrix product — left operand contracted on its second axis, right on its first, no batch axes — into
    the zero accumulator, read at (p, q): the sum over k < K of A(p, k) · B(k, q). -/
theorem matmul_zero_ix2 {M K N : ℕ} {φ₁ φ₂ : FTy}
    (d : DotDims ⟨2, ![M, K]⟩ ⟨2, ![K, N]⟩ ⟨2, ![M, N]⟩) (hr : d.contr.rank = 1) (hs : d.contr.size ⟨0, by omega⟩ = K)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂) (p : Fin M) (q : Fin N) :
    matmul d prec A B (constant ⟨2, ![M, N]⟩ .f32 0x00000000#32) (ix2 p q) = ∑ k : Fin K, A (ix2 p k) * B (ix2 k q) :=
  matmul_zero_ix2_of d hr hs
    (fun i q => lhs_free_val d 0 0 hlb hln rfl i q)
    (fun i q => d.lhsIdx_val_of_single hlc i q)
    (fun i q => d.rhsIdx_val_of_single hrc i q)
    (fun i q => rhs_free_val d 1 1 0 hlb hrb hln hrn rfl i q)
    prec A B p q

end Cert.LibOuterDot

end
-- ==== Proof.LibDotNT.lean ====
/-
  A matrix product against a transposed right operand, read at an index, for any sizes, at the ideal values.

  A [M, K] × [N, K] product contracted on the second axis of both operands, into a zero accumulator: entry (p, q) is
  Σ over k < K of A(p, k) · B(q, k) — the product of A with the transpose of B, the transpose never formed.
-/
import proofs.«167484_j45260365365949_1_alg».proof.Proof.LibOuterDot

noncomputable section

open scoped BigOperators

namespace Cert.LibDotNT

open Idealize.ShloMosaic Idealize.ShloMosaic.ValueIdx

/-- The product read at (p, q), given where the dimension numbers send an output index and a contraction index. -/
theorem matmul_zero_nt_of {M K N : ℕ} {φ₁ φ₂ : FTy}
    (d : DotDims ⟨2, ![M, K]⟩ ⟨2, ![N, K]⟩ ⟨2, ![M, N]⟩) (hr : d.contr.rank = 1) (hs : d.contr.size ⟨0, by omega⟩ = K)
    (l0 : ∀ i q, (d.lhsIdx i q 0).val = (i 0).val) (l1 : ∀ i q, (d.lhsIdx i q 1).val = (q ⟨0, by omega⟩).val)
    (r0 : ∀ i q, (d.rhsIdx i q 0).val = (i 1).val) (r1 : ∀ i q, (d.rhsIdx i q 1).val = (q ⟨0, by omega⟩).val)
    (prec : Option ContractPrecision) (A : FVec Ideal ⟨2, ![M, K]⟩ φ₁) (B : FVec Ideal ⟨2, ![N, K]⟩ φ₂) (p : Fin M) (q : Fin N) :
    matmul d prec A B (constant ⟨2, ![M, N]⟩ .f32 0x00000000#32) (ix2 p q) = ∑ k : Fin K, A (ix2 p k) * B (ix2 q k) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact l0 _ _
    | ⟨1, _⟩ => exact (l1 _ _).trans hk)
  have er : d.rhsIdx (ix2 p q) ((contrEquiv1 d K hr hs).symm k) = ix2 q k := funext fun a => Fin.ext (by
    match a with
    | ⟨0, _⟩ => exact r0 _ _
    | ⟨1, _⟩ => exact (r1 _ _).trans hk)
  rw [el, er]

/-- Both operands contracted on their second axis, no batch axes: entry (p, q) is Σ over k < K of A(p, k) · B(q, k). -/
theorem matmul_zero_nt {M K N : ℕ} {φ₁ φ₂ : FTy}
    (d : DotDims ⟨2, ![M, K]⟩ ⟨2, ![N, K]⟩ ⟨2, ![M, N]⟩) (hr : d.contr.rank = 1) (hs : d.contr.size ⟨0, by omega⟩ = K)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![M, K]⟩ φ₁) (B : FVec Ideal ⟨2, ![N, K]⟩ φ₂) (p : Fin M) (q : Fin N) :
    matmul d prec A B (constant ⟨2, ![M, N]⟩ .f32 0x00000000#32) (ix2 p q) = ∑ k : Fin K, A (ix2 p k) * B (ix2 q k) :=
  matmul_zero_nt_of d hr hs
    (fun i q => Cert.LibOuterDot.lhs_free_val d 0 0 hlb hln rfl i q)
    (fun i q => d.lhsIdx_val_of_single hlc i q)
    (fun i q => Cert.LibOuterDot.rhs_free_val d 0 1 0 hlb hrb hln hrn rfl i q)
    (fun i q => d.rhsIdx_val_of_single hrc i q)
    prec A B p q

end Cert.LibDotNT

end
-- ==== Proof.Payload.lean ====
/-
  The body's three stored values read at one entry, at the ideal values (floats extended reals, format changes the
  identity, a product into a zero accumulator a plain sum).

  * the reset value is 0 everywhere;
  * the update of an accumulator acc by blocks x0 [2048, 256] of x, x1 [2048, 256] of W, x2 [16, 256] of A and
    x3 [2048, 16] of B is, at (p, q),  acc(p, q) + Σ_j x0(p, j) · (x1(q, j) + Σ_r x3(q, r) · x2(r, j)):
    the rank-16 correction x3 · x2 is added to the weight block, and x0 is multiplied with the transpose of the result;
  * the output value is, at (p, q), the accumulator's entry plus entry q of the bias row.
-/
import proofs.«167484_j45260365365949_1_alg».proof.Proof.Gen.KernelIdeal.Skeleton
import proofs.«167484_j45260365365949_1_alg».proof.Proof.LibDotNT
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.KernelIdeal.Payload

open Cert.KernelIdeal Cert.KernelIdeal.Gen

/-- The reset value is zero. -/
theorem reset_apply (i : S2048x2048.Idx) : k0_pay1 (F := Ideal) i = 0 := by
  unfold k0_pay1
  simp only [shapeCast_self]
  exact Ideal.ofBits_zero_f32

/-- The rank-16 correction at (q, j): Σ_r x3(q, r) · x2(r, j). -/
theorem corr_apply (x2 : FVec Ideal S16x256 .f32) (x3 : FVec Ideal S2048x16 .f32) (q : Fin 2048) (j : Fin 256) :
    matmul dot_S2048x16_S16x256_S2048x256_1_0_0_1_n_n none (truncf .bf16 x3 bitsLt_bf16_f32) (truncf .bf16 x2 bitsLt_bf16_f32)
        (constant S2048x256 .f32 0x00000000#32) (ix2 q j)
      = ∑ r : Fin 16, x3 (ix2 q r) * x2 (ix2 r j) :=
  Cert.LibOuterDot.matmul_zero_ix2 (M := 2048) (K := 16) (N := 256) dot_S2048x16_S16x256_S2048x256_1_0_0_1_n_n rfl rfl rfl rfl rfl rfl rfl rfl
    none _ _ q j

/-- The update at (p, q). -/
theorem update_apply (x0 x1 : FVec Ideal S2048x256 .f32) (x2 : FVec Ideal S16x256 .f32) (x3 : FVec Ideal S2048x16 .f32)
    (acc : FVec Ideal S2048x2048 .f32) (p q : Fin 2048) :
    k0_pay2 (F := Ideal) x0 x1 x2 x3 acc (ix2 p q)
      = acc (ix2 p q) + ∑ j : Fin 256, x0 (ix2 p j) * (x1 (ix2 q j) + ∑ r : Fin 16, x3 (ix2 q r) * x2 (ix2 r j)) := by
  unfold k0_pay2
  simp only [shapeCast_self]
  refine (addf_apply _ _ _).trans (congrArg (acc (ix2 p q) + ·) ?_)
  refine (Cert.LibDotNT.matmul_zero_nt (M := 2048) (K := 256) (N := 2048) dot_S2048x256_S2048x256_S2048x2048_1_1_0_0_n_n rfl rfl rfl rfl rfl rfl rfl rfl
    none _ _ p q).trans ?_
  refine Finset.sum_congr rfl fun j _ => ?_
  refine congrArg (x0 (ix2 p j) * ·) ?_
  exact congrArg (x1 (ix2 q j) + ·) (corr_apply x2 x3 q j)

/-- The output value at (p, q). -/
theorem output_apply (acc : FVec Ideal S2048x2048 .f32) (x4 : FVec Ideal S1x2048 .f32) (p q : Fin 2048) :
    k0_pay3 (F := Ideal) acc x4 (ix2 p q) = acc (ix2 p q) + x4 (ix2 (0 : Fin 1) q) := by
  unfold k0_pay3
  simp only [shapeCast_self]
  refine (addf_apply _ _ _).trans (congrArg (acc (ix2 p q) + ·) ?_)
  refine broadcastTo_apply x4 broadcasts_S1x2048_S2048x2048 (ix2 p q) (ix2 (0 : Fin 1) q) fun a => ?_
  match a with
  | ⟨0, _⟩ => rfl
  | ⟨1, _⟩ => rfl

end Cert.KernelIdeal.Payload

end
-- ==== Proof.Spec.lean ====
/-
  The result of the low-rank-adapted linear layer, written two ways as a function of the five argument arrays
  x [2, 4096, 4096], W [4096, 4096], bias [4096], A [16, 4096], B [4096, 16], and the law that joins them.

  * fused form: the contraction axis of length 4096 is cut into sixteen slices of width 256; slice k contributes
    Σ_j x(c) · (W(o, c) + Σ_r B(o, r) · A(r, c)) over its columns c = 256·k + j, the slices are added in order, and the
    bias is added last. The rank-16 correction B·A is folded into the weight before the product with x.
  * split form: (Σ_i x(i) · W(o, i) + bias(o)) + Σ_r (Σ_i x(i) · A(r, i)) · B(o, r): the base product with its bias, and
    the low-rank path contracted with A first and B second.

  Over the reals the two agree: the sixteen slices tile the 4096 columns, x·(w + s) = x·w + x·s, and the two finite sums
  over r and over the columns commute. Distributivity fails at the infinities of the extended reals, so the law is stated
  for arrays whose every entry is a real number.
-/
import Idealize.ShloMosaic.Lib.ValueIdx

noncomputable section

open scoped BigOperators

namespace Cert.LoraSpec

open Idealize.ShloMosaic Idealize.ShloMosaic.ValueIdx

/-- Column 256·k + j of the contraction axis: column j of slice k. (Wrapped into range so that it is total in k; for
    k below 16 nothing wraps.) -/
def col (k : ℕ) (j : Fin 256) : Fin 4096 := ⟨(256 * k + j.val) % 4096, Nat.mod_lt _ (by norm_num)⟩

theorem col_val (k : ℕ) (j : Fin 256) (hk : k < 16) : (col k j).val = 256 * k + j.val := by
  have := j.isLt
  show (256 * k + j.val) % 4096 = _
  omega

/-- What slice k adds, for one output entry: x is that entry's row of x, w its row of W, b its row of B. -/
def slice (x w : Fin 4096 → EReal) (a : Fin 16 → Fin 4096 → EReal) (b : Fin 16 → EReal) (k : ℕ) : EReal :=
  ∑ j : Fin 256, x (col k j) * (w (col k j) + ∑ r : Fin 16, b r * a r (col k j))

/-- The fused form of one output entry. -/
def fused (x w : Fin 4096 → EReal) (a : Fin 16 → Fin 4096 → EReal) (b : Fin 16 → EReal) (β : EReal) : EReal :=
  (∑ k ∈ Finset.range 16, slice x w a b k) + β

/-- The split form of one output entry. -/
def split (x w : Fin 4096 → EReal) (a : Fin 16 → Fin 4096 → EReal) (b : Fin 16 → EReal) (β : EReal) : EReal :=
  ((∑ i : Fin 4096, x i * w i) + β) + ∑ r : Fin 16, (∑ i : Fin 4096, x i * a r i) * b r

/-- A finite sum of real numbers, taken in the extended reals, is the real sum. -/
theorem coe_sum {ι : Type} (s : Finset ι) (f : ι → ℝ) :
    (∑ i ∈ s, ((f i : ℝ) : EReal)) = ((∑ i ∈ s, f i : ℝ) : EReal) := by
  induction s using Finset.cons_induction with
  | empty => simp
  | cons a s ha ih => rw [Finset.sum_cons, Finset.sum_cons, ih, EReal.coe_add]

/-- The sixteen slices of width 256 tile the 4096 columns. -/
theorem sum_slices (f : Fin 4096 → ℝ) :
    ∑ k ∈ Finset.range 16, ∑ j : Fin 256, f (col k j) = ∑ i : Fin 4096, f i := by
  rw [Finset.sum_range (fun k => ∑ j : Fin 256, f (col k j))]
  rw [← Fintype.sum_prod_type' (f := fun (k : Fin 16) (j : Fin 256) => f (col k.val j))]
  rw [← Equiv.sum_comp (finProdFinEquiv.trans (finCongr (by norm_num : 16 * 256 = 4096))) f]
  refine Finset.sum_congr rfl fun p _ => congrArg f (Fin.ext ?_)
  rw [col_val _ _ p.1.isLt]
  simp only [Equiv.trans_apply, finCongr_apply, Fin.coe_cast, finProdFinEquiv_apply_val]
  omega

/-- Over the reals: x·(w + Σ_r b_r·a_r) summed over the columns, plus the bias, is the base product with its bias plus
    the low-rank path. -/
theorem real_law (x w : Fin 4096 → ℝ) (a : Fin 16 → Fin 4096 → ℝ) (b : Fin 16 → ℝ) (β : ℝ) :
    (∑ i, x i * (w i + ∑ r, b r * a r i)) + β = ((∑ i, x i * w i) + β) + ∑ r, (∑ i, x i * a r i) * b r := by
  have h1 : ∀ i, x i * (w i + ∑ r, b r * a r i) = x i * w i + ∑ r, (x i * a r i) * b r := fun i => by
    rw [mul_add, Finset.mul_sum]
    exact congrArg _ (Finset.sum_congr rfl fun r _ => by ring)
  simp only [h1, Finset.sum_add_distrib]
  rw [Finset.sum_comm, add_right_comm]
  simp only [Finset.sum_mul]

/-- THE LAW, for one output entry whose rows are real: fused = split. -/
theorem fused_eq_split (x w : Fin 4096 → ℝ) (a : Fin 16 → Fin 4096 → ℝ) (b : Fin 16 → ℝ) (β : ℝ) :
    fused (fun i => (x i : EReal)) (fun i => (w i : EReal)) (fun r i => (a r i : EReal)) (fun r => (b r : EReal)) (β : EReal)
      = split (fun i => (x i : EReal)) (fun i => (w i : EReal)) (fun r i => (a r i : EReal)) (fun r => (b r : EReal)) (β : EReal) := by
  unfold fused split slice
  simp only [← EReal.coe_mul, coe_sum, ← EReal.coe_add]
  have hs := sum_slices (fun i => x i * (w i + ∑ r, b r * a r i))
  beta_reduce at hs
  rw [hs, real_law]

/-! ## The two forms over the whole arrays -/

abbrev SX : Shape := ⟨3, ![2, 4096, 4096]⟩
abbrev SW : Shape := ⟨2, ![4096, 4096]⟩
abbrev Sb : Shape := ⟨1, ![4096]⟩
abbrev SA : Shape := ⟨2, ![16, 4096]⟩
abbrev SB : Shape := ⟨2, ![4096, 16]⟩

/-- Entry (b, s, o) of the result in the fused form. -/
def fusedAt (X : SX.Idx → EReal) (W : SW.Idx → EReal) (bias : Sb.Idx → EReal) (A : SA.Idx → EReal) (B : SB.Idx → EReal)
    (b : Fin 2) (s o : Fin 4096) : EReal :=
  fused (fun c => X (ix3 b s c)) (fun c => W (ix2 o c)) (fun r c => A (ix2 r c)) (fun r => B (ix2 o r)) (bias (ix1 o))

/-- Entry (b, s, o) of the result in the split form. -/
def splitAt (X : SX.Idx → EReal) (W : SW.Idx → EReal) (bias : Sb.Idx → EReal) (A : SA.Idx → EReal) (B : SB.Idx → EReal)
    (b : Fin 2) (s o : Fin 4096) : EReal :=
  split (fun c => X (ix3 b s c)) (fun c => W (ix2 o c)) (fun r c => A (ix2 r c)) (fun r => B (ix2 o r)) (bias (ix1 o))

/-- The whole result array in the fused form. -/
def fusedForm (X : SX.Idx → EReal) (W : SW.Idx → EReal) (bias : Sb.Idx → EReal) (A : SA.Idx → EReal) (B : SB.Idx → EReal) :
    SX.Idx → EReal := fun i => fusedAt X W bias A B (i 0) (i 1) (i 2)

/-- The whole result array in the split form. -/
def splitForm (X : SX.Idx → EReal) (W : SW.Idx → EReal) (bias : Sb.Idx → EReal) (A : SA.Idx → EReal) (B : SB.Idx → EReal) :
    SX.Idx → EReal := fun i => splitAt X W bias A B (i 0) (i 1) (i 2)

/-- On arrays of real numbers the two forms are one array. -/
theorem fusedForm_eq_splitForm {X : SX.Idx → EReal} {W : SW.Idx → EReal} {bias : Sb.Idx → EReal} {A : SA.Idx → EReal}
    {B : SB.Idx → EReal} (hX : ∀ i, ∃ r : ℝ, X i = (r : EReal)) (hW : ∀ i, ∃ r : ℝ, W i = (r : EReal))
    (hb : ∀ i, ∃ r : ℝ, bias i = (r : EReal)) (hA : ∀ i, ∃ r : ℝ, A i = (r : EReal)) (hB : ∀ i, ∃ r : ℝ, B i = (r : EReal)) :
    fusedForm X W bias A B = splitForm X W bias A B := by
  choose x hx using hX
  choose w hw using hW
  choose β hβ using hb
  choose a ha using hA
  choose b hb' using hB
  funext i
  unfold fusedForm splitForm fusedAt splitAt
  simp only [hx, hw, hβ, ha, hb']
  exact fused_eq_split _ _ _ _ _

end Cert.LoraSpec

end
-- ==== Proof.Slices.lean ====
/-
  The accumulator and the output block in closed form, at the ideal values.

  For the output entry in row P of x2 and column Q (row Q of W and of B), slice k of the contraction axis contributes
  Σ_j x2(P, c) · (W(Q, c) + Σ_r B(Q, r) · A(r, c)) over its columns c = 256·k + j. After point n the accumulator's entry
  (p, q), with P = 2048·(n/32) + p and Q = 2048·(n/16 mod 2) + q, is the sum of the contributions of slices 0 … n mod 16:
  by induction on n, a first slice adding its contribution to zero and every other slice to what the point before left
  (which belongs to the same output block, so to the same P and Q). At a last slice all sixteen are in, and the output
  block's entry is that sum plus the bias at column Q: the fused form of the specification.
-/
import proofs.«167484_j45260365365949_1_alg».proof.Proof.Blocks
import proofs.«167484_j45260365365949_1_alg».proof.Proof.Payload
import proofs.«167484_j45260365365949_1_alg».proof.Proof.Spec

set_option maxRecDepth 16384

noncomputable section

open scoped BigOperators
open Idealize.ShloMosaic Idealize.ShloMosaic.TcCoe Idealize.SL.Sem Idealize.ShloMosaic.ValueIdx

namespace Cert.KernelIdeal.Acc

open Cert.KernelIdeal Cert.KernelIdeal.Gen Cert.KernelIdeal.Payload Cert.LoraSpec

variable (m : (ℓ : Loc nD τ sig) → Buf (Elt Ideal) ℓ)

/-- The arrays as the region finds them, as arrays of extended reals. -/
abbrev X2 (c : Dev nD) : FVec Ideal S8192x4096 .f32 := V m c main_v0
abbrev Wm (c : Dev nD) : FVec Ideal S4096x4096 .f32 := V m c main_arg1
abbrev Am (c : Dev nD) : FVec Ideal S16x4096 .f32 := V m c main_arg3
abbrev Bm (c : Dev nD) : FVec Ideal S4096x16 .f32 := V m c main_arg4
abbrev brw (c : Dev nD) : FVec Ideal S1x4096 .f32 := V m c main_v1

/-- Point t's blocks, as arrays of extended reals. -/
abbrev xb (c : Dev nD) (t : Fin cfg0.N) : FVec Ideal S2048x256 .f32 := iblk m c 0 t
abbrev wb (c : Dev nD) (t : Fin cfg0.N) : FVec Ideal S2048x256 .f32 := iblk m c 1 t
abbrev ab (c : Dev nD) (t : Fin cfg0.N) : FVec Ideal S16x256 .f32 := iblk m c 2 t
abbrev bb (c : Dev nD) (t : Fin cfg0.N) : FVec Ideal S2048x16 .f32 := iblk m c 3 t
abbrev biasb (c : Dev nD) (t : Fin cfg0.N) : FVec Ideal S1x2048 .f32 := iblk m c 4 t
/-- The accumulator after point n, as an array of extended reals. -/
abbrev accI (c : Dev nD) (n : ℕ) (h : n < cfg0.N) : FVec Ideal S2048x2048 .f32 := accAfter m c n h

/-- What slice k contributes to the output entry in row P, column Q. -/
def contrib (c : Dev nD) (P : Fin 8192) (Q : Fin 4096) (k : ℕ) : EReal :=
  slice (fun cc => X2 m c (ix2 P cc)) (fun cc => Wm m c (ix2 Q cc)) (fun r cc => Am m c (ix2 r cc)) (fun r => Bm m c (ix2 Q r)) k

/-- Point t's blocks give slice t mod 16's contribution. -/
theorem point_contrib (c : Dev nD) (t : Fin cfg0.N) (p q : Fin 2048) (P : Fin 8192) (Q : Fin 4096)
    (hP : P.val = 2048 * (t.val / 32) + p.val) (hQ : Q.val = 2048 * (t.val / 16 % 2) + q.val) :
    (∑ j : Fin 256, xb m c t (ix2 p j) * (wb m c t (ix2 q j) + ∑ r : Fin 16, bb m c t (ix2 q r) * ab m c t (ix2 r j)))
      = contrib m c P Q (t.val % 16) := by
  unfold contrib slice
  have hk : t.val % 16 < 16 := Nat.mod_lt _ (by norm_num)
  refine Finset.sum_congr rfl fun j _ => ?_
  have ex : xb m c t (ix2 p j) = X2 m c (ix2 P (col (t.val % 16) j)) := xblk_apply m c t p j P _ hP (col_val _ _ hk)
  have ew : wb m c t (ix2 q j) = Wm m c (ix2 Q (col (t.val % 16) j)) := wblk_apply m c t q j Q _ hQ (col_val _ _ hk)
  have es : ∀ r : Fin 16, bb m c t (ix2 q r) * ab m c t (ix2 r j) = Bm m c (ix2 Q r) * Am m c (ix2 r (col (t.val % 16) j)) := fun r => by
    have eb : bb m c t (ix2 q r) = Bm m c (ix2 Q r) := bblk_apply m c t q r Q hQ
    have ea : ab m c t (ix2 r j) = Am m c (ix2 r (col (t.val % 16) j)) := ablk_apply m c t r j _ (col_val _ _ hk)
    rw [eb, ea]
  rw [ex, ew, Finset.sum_congr rfl fun r _ => es r]

theorem accI_zero (c : Dev nD) (h : 0 < cfg0.N) :
    accI m c 0 h = k0_pay2 (xb m c ⟨0, h⟩) (wb m c ⟨0, h⟩) (ab m c ⟨0, h⟩) (bb m c ⟨0, h⟩) k0_pay1 := rfl

theorem accI_first (c : Dev nD) (n : ℕ) (h : n + 1 < cfg0.N) (h0 : (n + 1) % 16 = 0) :
    accI m c (n + 1) h = k0_pay2 (xb m c ⟨n + 1, h⟩) (wb m c ⟨n + 1, h⟩) (ab m c ⟨n + 1, h⟩) (bb m c ⟨n + 1, h⟩) k0_pay1 := by
  show accAfter m c (n + 1) h = _
  rw [accAfter_succ, if_pos h0]

theorem accI_next (c : Dev nD) (n : ℕ) (h : n + 1 < cfg0.N) (h0 : ¬(n + 1) % 16 = 0) :
    accI m c (n + 1) h = k0_pay2 (xb m c ⟨n + 1, h⟩) (wb m c ⟨n + 1, h⟩) (ab m c ⟨n + 1, h⟩) (bb m c ⟨n + 1, h⟩)
      (accI m c n (Nat.lt_of_succ_lt h)) := by
  show accAfter m c (n + 1) h = _
  rw [accAfter_succ, if_neg h0]

/-- THE ACCUMULATOR: after point n, entry (p, q) is the sum of the contributions of slices 0 … n mod 16. -/
theorem accI_apply (c : Dev nD) : ∀ (n : ℕ) (h : n < cfg0.N) (p q : Fin 2048) (P : Fin 8192) (Q : Fin 4096)
    (hP : P.val = 2048 * (n / 32) + p.val) (hQ : Q.val = 2048 * (n / 16 % 2) + q.val),
    accI m c n h (ix2 p q) = ∑ k ∈ Finset.range (n % 16 + 1), contrib m c P Q k
  | 0, h, p, q, P, Q, hP, hQ => by
    rw [accI_zero, update_apply, reset_apply, zero_add, point_contrib m c ⟨0, h⟩ p q P Q hP hQ]
    show contrib m c P Q 0 = ∑ k ∈ Finset.range 1, contrib m c P Q k
    rw [Finset.sum_range_one]
  | n + 1, h, p, q, P, Q, hP, hQ => by
    by_cases h0 : (n + 1) % 16 = 0
    · rw [accI_first m c n h h0, update_apply, reset_apply, zero_add, point_contrib m c ⟨n + 1, h⟩ p q P Q hP hQ]
      show contrib m c P Q ((n + 1) % 16) = _
      rw [h0, Finset.sum_range_one]
    · have hP' : P.val = 2048 * (n / 32) + p.val := by omega
      have hQ' : Q.val = 2048 * (n / 16 % 2) + q.val := by omega
      rw [accI_next m c n h h0, update_apply, accI_apply c n (Nat.lt_of_succ_lt h) p q P Q hP' hQ',
        point_contrib m c ⟨n + 1, h⟩ p q P Q hP hQ]
      show _ + contrib m c P Q ((n + 1) % 16) = _
      rw [show (n + 1) % 16 = n % 16 + 1 by omega]
      exact (Finset.sum_range_succ _ _).symm

/-- The flat [8192, 4096] result: every entry in the fused form, over x2 and the bias row. -/
def flat (c : Dev nD) : FVec Ideal S8192x4096 .f32 := fun i =>
  fused (fun cc => X2 m c (ix2 (n0 := 8192) (n1 := 4096) (i 0) cc)) (fun cc => Wm m c (ix2 (n0 := 4096) (n1 := 4096) (i 1) cc))
    (fun r cc => Am m c (ix2 r cc)) (fun r => Bm m c (ix2 (n0 := 4096) (n1 := 16) (i 1) r))
    (brw m c (ix2 (n0 := 1) (n1 := 4096) (0 : Fin 1) (i 1)))

/-- THE OUTPUT BLOCK at a last slice: entry y of the block is the flat result at the entry I it lands on. -/
theorem out_apply (c : Dev nD) (t : Fin cfg0.N) (h15 : t.val % 16 = 15) (y : S2048x2048.Idx) (I : S8192x4096.Idx)
    (h0 : (I 0).val = 2048 * (t.val / 32) + (y 0).val) (h1 : (I 1).val = 2048 * (t.val / 16 % 2) + (y 1).val) :
    k0_pay3 (F := Ideal) (accI m c t.val t.isLt) (biasb m c t) y = flat m c I := by
  obtain ⟨p, q, rfl⟩ : ∃ (p q : Fin 2048), y = ix2 p q := ⟨y 0, y 1, eq_ix2 y⟩
  obtain ⟨P, Q, rfl⟩ : ∃ (P : Fin 8192) (Q : Fin 4096), I = ix2 P Q := ⟨I 0, I 1, eq_ix2 I⟩
  have eb : biasb m c t (ix2 (0 : Fin 1) q) = brw m c (ix2 (0 : Fin 1) Q) := biasblk_apply m c t q Q h1
  rw [output_apply, accI_apply m c t.val t.isLt p q P Q h0 h1, eb, h15]
  rfl

end Cert.KernelIdeal.Acc

end
-- ==== Proof.KernelValue.lean ====
/-
  What the kernel's result array holds after the run, at the ideal values.

  Only the last slice of each output block is written back: point t with t mod 16 = 15 writes block (t/32, t/16 mod 2) of
  the flat [8192, 4096] array, and what it writes is that block of the flat result (every entry in the fused form). The
  eight such blocks tile the array — entry (P, Q) lies in the block of point 32·(P/2048) + 16·(Q/2048) + 15 — so after
  the run the array IS the flat result. The reshape after the region reads it at (4096·b + s, o) for entry (b, s, o), the
  reshape before the region put x(b, s, i) at (4096·b + s, i) and bias(o) at (0, o): the program's result is the fused
  form of the five argument arrays.
-/
import proofs.«167484_j45260365365949_1_alg».proof.Proof.Slices

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.LoraSpec

variable (m : (ℓ : Loc nD τ sig) → Buf (Elt Ideal) ℓ) (ρ : Dev nD → PrngReg)

/-- What a flushing point writes back is its block of the flat result. -/
theorem flushed_eq (c : Dev nD) (t : Fin cfg0.N) (hf : (cfg0.win 5).flush t = true) :
    (dats m 0 c).flushed 5 t = ((cfg0.win 5).blk t).view.read (Elt Ideal) (flat m c) := by
  have h15 : t.val % 16 = 15 := (flush0_5 t).mp hf
  obtain ⟨-, -, -, -, -, -, -, -, -, -, e0, e1⟩ := idx_facts t
  show (cfg0.win 5).cut (grid0.coords t) ((dats m 0 c).after 5 t) = _
  rw [after0_5, out_eq m c t h15]
  funext y
  refine out_apply m c t h15 y (((cfg0.win 5).blk t).view.emb y) ?_ ?_
  · show win0_5.index t (0 : Fin 2) * 2048 + 1 * (y 0).val = 2048 * (t.val / 32) + (y 0).val
    omega
  · show win0_5.index t (1 : Fin 2) * 2048 + 1 * (y 1).val = 2048 * (t.val / 16 % 2) + (y 1).val
    omega

/-- An entry of the array is in point t's output block iff each coordinate is in the block's range. -/
theorem mem_blk (t : Fin cfg0.N) (i : S8192x4096.Idx) :
    i ∈ ((cfg0.win 5).blk t).view.set ↔ ∀ a : Fin 2, win0_5.index t a * S2048x2048.size a ≤ (i a).val
      ∧ (i a).val < win0_5.index t a * S2048x2048.size a + S2048x2048.size a := by
  show i ∈ ((View.whole main_v2).slice (win0_5.rect t)).set ↔ _
  rw [View.set_slice_whole, Rect.mem_set_unit]
  exact Iff.rfl

/-- After the run the flat array is the flat result: the eight flushed blocks tile it. -/
theorem final (c : Dev nD) : (dats m 0 c).arrAt 5 cfg0.N = flat m c :=
  (dats m 0 c).arrAt_eq_of_cover 5 (flat m c) (flushed_eq m c) fun i => by
    have hi0 : (i 0).val < 8192 := (i 0).isLt
    have hi1 : (i 1).val < 4096 := (i 1).isLt
    have hN : cfg0.N = 128 := N_0
    obtain ⟨t, ht⟩ : ∃ t : Fin cfg0.N, t.val = 32 * ((i 0).val / 2048) + 16 * ((i 1).val / 2048) + 15 :=
      ⟨⟨32 * ((i 0).val / 2048) + 16 * ((i 1).val / 2048) + 15, by omega⟩, rfl⟩
    obtain ⟨-, -, -, -, -, -, -, -, -, -, e0, e1⟩ := idx_facts t
    refine ⟨t, (flush0_5 t).mpr (by omega), ?_⟩
    rw [mem_blk]
    intro a
    match a with
    | ⟨0, _⟩ =>
      show win0_5.index t (0 : Fin 2) * 2048 ≤ (i 0).val ∧ (i 0).val < win0_5.index t (0 : Fin 2) * 2048 + 2048
      omega
    | ⟨1, _⟩ =>
      show win0_5.index t (1 : Fin 2) * 2048 ≤ (i 1).val ∧ (i 1).val < win0_5.index t (1 : Fin 2) * 2048 + 2048
      omega

/-- The program's result buffer: the flat array after the run, reshaped to [2, 4096, 4096]. -/
theorem tail_eq (c : Dev nD) :
    Pipeline.afterTail₀ cfgs (dats m) 0 (V0 m) [hostOps1] c main_v3
      = shapeCast S2x4096x4096 (flat m c) shapeCasts_S8192x4096_S2x4096x4096 := by
  have hw : Pipeline.withArrays (cfgs 0).spec c (V0 m c) (fun w => (dats m 0 c).arrAt w (cfgs 0).N) (Proc.tc.devRef main_v2)
      = flat m c :=
    (Pipeline.withArrays_arr spec0 launch0.win.arr_inj c _ _ 5).trans (final m c)
  unfold Pipeline.afterTail₀
  show StableHlo.after hostOps1 _ (Proc.devRef .tc main_v3) = _
  after_results
  rw [hw]
  rfl

/-- The reshaped flat result is the fused form of the five argument arrays. -/
theorem result_value (c : Dev nD) :
    shapeCast S2x4096x4096 (flat m c) shapeCasts_S8192x4096_S2x4096x4096
      = fusedForm (m ((c : Thread nD τ).loc main_arg0)) (m ((c : Thread nD τ).loc main_arg1)) (m ((c : Thread nD τ).loc main_arg2)) (m ((c : Thread nD τ).loc main_arg3)) (m ((c : Thread nD τ).loc main_arg4)) := by
  funext i
  obtain ⟨b, s, o, rfl⟩ : ∃ (b : Fin 2) (s o : Fin 4096), i = ix3 b s o := ⟨i 0, i 1, i 2, eq_ix3 i⟩
  have hP : 4096 * b.val + s.val < 8192 := by have := b.isLt; have := s.isLt; omega
  refine (shapeCast_apply (flat m c) shapeCasts_S8192x4096_S2x4096x4096 (ix3 b s o)
    (ix2 (⟨4096 * b.val + s.val, hP⟩ : Fin 8192) o) ?_).trans ?_
  · rw [Shape.rowMajor_val_two, Shape.rowMajor_val_three]
    show (4096 * b.val + s.val) * 4096 + o.val = (b.val * 4096 + s.val) * 4096 + o.val
    ring
  · have ex : (fun cc : Fin 4096 => X2 m c (ix2 (⟨4096 * b.val + s.val, hP⟩ : Fin 8192) cc))
        = fun cc => (m ((c : Thread nD τ).loc main_arg0) : FVec Ideal S2x4096x4096 .f32) (ix3 b s cc) :=
      funext fun cc => x2arr_apply m c b s cc _ rfl
    have eb : brw m c (ix2 (0 : Fin 1) o) = (m ((c : Thread nD τ).loc main_arg2) : FVec Ideal S4096 .f32) (ix1 o) := biasrow_apply m c o
    have ew : Wm m c = m ((c : Thread nD τ).loc main_arg1) := warr_eq m c
    have ea : Am m c = m ((c : Thread nD τ).loc main_arg3) := aarr_eq m c
    have ebb : Bm m c = m ((c : Thread nD τ).loc main_arg4) := barr_eq m c
    show fused (fun cc : Fin 4096 => X2 m c (ix2 (⟨4096 * b.val + s.val, hP⟩ : Fin 8192) cc)) (fun cc => Wm m c (ix2 o cc))
        (fun r cc => Am m c (ix2 r cc)) (fun r => Bm m c (ix2 o r)) (brw m c (ix2 (0 : Fin 1) o))
      = fused (fun cc => (m ((c : Thread nD τ).loc main_arg0) : FVec Ideal S2x4096x4096 .f32) (ix3 b s cc))
          (fun cc => (m ((c : Thread nD τ).loc main_arg1) : FVec Ideal S4096x4096 .f32) (ix2 o cc))
          (fun r cc => (m ((c : Thread nD τ).loc main_arg3) : FVec Ideal S16x4096 .f32) (ix2 r cc))
          (fun r => (m ((c : Thread nD τ).loc main_arg4) : FVec Ideal S4096x16 .f32) (ix2 o r))
          ((m ((c : Thread nD τ).loc main_arg2) : FVec Ideal S4096 .f32) (ix1 o))
    rw [ex, eb, ew, ea, ebb]

/-- THE RUN, READ: every weakly fair execution of the program ends with the result buffer at the fused form of the
    argument arrays, and the argument arrays unchanged. -/
theorem run : θ_run defs (onTc (τ := τ) (main (F := Ideal))) ⟨m, fun _ => 0, ρ⟩ fun r => ∀ c : Dev nD,
      r.2.mem ((c.tc : Thread nD τ).loc main_v3)
          = fusedForm (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v3 (Pipeline.mem_restRefs_of main_v3 (by decide) (by decide))).trans ((tail_eq m c).trans (result_value m c)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c)))⟩)
    (run_main m ρ)

end Cert.KernelIdeal.Acc

end
-- ==== Proof.RefValue.lean ====
/-
  The reference computes the split form.

  Read one operation at a time, entry (b, s, o) of the reference's result is
  (Σ_i x(b, s, i) · W(o, i) + bias(o)) + Σ_r (Σ_i x(b, s, i) · A(r, i)) · B(o, r):
  the two host products contract the last axis of both operands, the bias is broadcast along the last axis, and the
  low-rank path contracts with A first and with B second. That is the split form of the specification, entry by entry.
-/
import proofs.«167484_j45260365365949_1_alg».proof.Proof.Gen.ReferenceIdeal.Read
import proofs.«167484_j45260365365949_1_alg».proof.Proof.Spec

noncomputable section

open scoped BigOperators
open Idealize.ShloMosaic Idealize.ShloMosaic.ValueIdx

namespace Cert.ReferenceIdeal.RefValue

open Cert.ReferenceIdeal Cert.ReferenceIdeal.Read

/-- The reference's result, as the generated stages compose it, is the split form of the five arrays. -/
theorem result_eq (X : (⟨S2x4096x4096, .f32⟩ : BufTy).Contents (Elt Ideal)) (W : (⟨S4096x4096, .f32⟩ : BufTy).Contents (Elt Ideal))
    (bias : (⟨S4096, .f32⟩ : BufTy).Contents (Elt Ideal)) (A : (⟨S16x4096, .f32⟩ : BufTy).Contents (Elt Ideal))
    (B : (⟨S4096x16, .f32⟩ : BufTy).Contents (Elt Ideal)) :
    val_main_v6 (F := Ideal) X W bias A B = Cert.LoraSpec.splitForm X W bias A B := by
  funext i
  have e0 : ∀ k, lidx_main_v0 i k = ix3 (n0 := 2) (n1 := 4096) (n2 := 4096) (i 0) (i 1) k := fun k => funext fun a => by
    match a with
    | ⟨0, _⟩ => rfl
    | ⟨1, _⟩ => rfl
    | ⟨2, _⟩ => rfl
  have e1 : ∀ k, ridx_main_v0 i k = ix2 (n0 := 4096) (n1 := 4096) (i 2) k := fun k => funext fun a => by
    match a with
    | ⟨0, _⟩ => rfl
    | ⟨1, _⟩ => rfl
  have e2 : idx_main_v1 (idx_main_v2 i) = ix1 (n := 4096) (i 2) := funext fun a => by
    match a with
    | ⟨0, _⟩ => rfl
  have e3 : ∀ (r : Fin 16) k, lidx_main_v4 (lidx_main_v5 i r) k = ix3 (n0 := 2) (n1 := 4096) (n2 := 4096) (i 0) (i 1) k :=
    fun r k => funext fun a => by
      match a with
      | ⟨0, _⟩ => rfl
      | ⟨1, _⟩ => rfl
      | ⟨2, _⟩ => rfl
  have e4 : ∀ (r : Fin 16) k, ridx_main_v4 (lidx_main_v5 i r) k = ix2 (n0 := 16) (n1 := 4096) r k := fun r k => funext fun a => by
    match a with
    | ⟨0, _⟩ => rfl
    | ⟨1, _⟩ => rfl
  have e5 : ∀ r : Fin 16, ridx_main_v5 i r = ix2 (n0 := 4096) (n1 := 16) (i 2) r := fun r => funext fun a => by
    match a with
    | ⟨0, _⟩ => rfl
    | ⟨1, _⟩ => rfl
  rw [val_main_v6_apply, val_main_v3_apply, val_main_v0_apply, val_main_v2_apply, val_main_v1_apply, val_main_v5_apply]
  simp only [val_main_v4_apply, e0, e1, e2, e3, e4, e5]
  rfl

end Cert.ReferenceIdeal.RefValue

end
-- ==== Proof.Finite.lean ====
/-
  From the precondition to real numbers.

  The precondition is, for each of the five argument arrays, "every entry's absolute value is below +∞", the five joined
  by "and". At the ideal values an entry is an extended real, its absolute value max v (-v), and the pattern 0x7F800000
  denotes +∞; so an entry that passes is neither +∞ nor -∞: it is a real number. The law that joins the kernel and
  the reference (distributivity) needs exactly this.
-/
import proofs.«167484_j45260365365949_1_alg».proof.Proof.Gen.Pre_finite_inputs
import Idealize.ShloMosaic.Lib.ReduceAll
import Idealize.ShloMosaic.Lib.ValueIdx
import Idealize.ShloMosaic.PureOps.Ideal.Laws

noncomputable section

open Idealize.ShloMosaic

namespace Cert.Pre_finite_inputs.Finite

open Cert.Pre_finite_inputs

/-- The scalar shape has one index. -/
instance : Subsingleton S_.Idx := ⟨fun a b => funext fun d => d.elim0⟩

/-- The pattern 0x7F800000 denotes +∞. -/
theorem inf_pattern : Ideal.ofBits .f32 0x7F800000#32 = ⊤ := by simp [Ideal.ofBits, Ideal.ieee]

/-- An extended real whose absolute value is below +∞ is a real number. -/
theorem real_of_abs_lt_top (x : EReal) (h : Ideal.cmp .olt (max x (-x)) ⊤ = 1#1) : ∃ r : ℝ, x = (r : EReal) := by
  induction x using EReal.rec with
  | bot => exact absurd h (by simp [Ideal.cmp])
  | top => exact absurd h (by simp [Ideal.cmp])
  | coe r => exact ⟨r, rfl⟩

/-- An entry where the mask "absolute value below +∞" holds is a real number. -/
theorem real_of_mask {s : Shape} (X : FVec Ideal s .f32) (hb : S_.BroadcastsInDim s (![] : Fin 0 → Fin s.rank)) (i : s.Idx)
    (h : cmpf .olt (Host.absf X) (broadcastInDim s ![] hb (constant S_ .f32 0x7F800000#32)) i = 1#1) :
    ∃ r : ℝ, X i = (r : EReal) := by
  have h' : Ideal.cmp .olt (max (X i) (-(X i))) (Ideal.ofBits .f32 0x7F800000#32) = 1#1 := h
  rw [inf_pattern] at h'
  exact real_of_abs_lt_top _ h'

/-- Under the precondition every entry of every argument array is a real number. -/
theorem reals_of_pre (X : FVec Ideal S2x4096x4096 .f32) (W : FVec Ideal S4096x4096 .f32) (bias : FVec Ideal S4096 .f32)
    (A : FVec Ideal S16x4096 .f32) (B : FVec Ideal S4096x16 .f32)
    (h : fn (F := Ideal) X W bias A B = fun _ => 1#1) :
    (∀ i, ∃ r : ℝ, X i = (r : EReal)) ∧ (∀ i, ∃ r : ℝ, W i = (r : EReal)) ∧ (∀ i, ∃ r : ℝ, bias i = (r : EReal))
      ∧ (∀ i, ∃ r : ℝ, A i = (r : EReal)) ∧ (∀ i, ∃ r : ℝ, B i = (r : EReal)) := by
  have h0 := congrFun h ValueIdx.ix0
  dsimp only [fn, fn_part1, andi] at h0
  obtain ⟨h0123, hB⟩ := IntOp.andi_eq_one.1 h0
  obtain ⟨h012, hA⟩ := IntOp.andi_eq_one.1 h0123
  obtain ⟨h01, hb⟩ := IntOp.andi_eq_one.1 h012
  obtain ⟨hX, hW⟩ := IntOp.andi_eq_one.1 h01
  exact ⟨fun i => real_of_mask X _ i (Host.reduce_andi_all _ _ _ _ _ hX i),
    fun i => real_of_mask W _ i (Host.reduce_andi_all _ _ _ _ _ hW i),
    fun i => real_of_mask bias _ i (Host.reduce_andi_all _ _ _ _ _ hb i),
    fun i => real_of_mask A _ i (Host.reduce_andi_all _ _ _ _ _ hA i),
    fun i => real_of_mask B _ i (Host.reduce_andi_all _ _ _ _ _ hB i)⟩

end Cert.Pre_finite_inputs.Finite

end
-- ==== Proof.lean ====
/-
  A linear layer with a rank-16 adapter, out = x · (W + B · A)ᵀ + bias, computed by one pipelined kernel over a 4 × 2 × 16
  grid, against the plain formulation (x · Wᵀ + bias) + (x · Aᵀ) · Bᵀ.

  The kernel flattens x to [8192, 4096], tiles the output into 4 × 2 blocks of [2048, 2048] and cuts the contraction axis
  into sixteen slices of width 256. For each output block it keeps an accumulator across the sixteen slices: reset at the
  first, at each slice it adds x_blk · (W_blk + B_blk · A_blk)ᵀ — the rank-16 correction folded into the weight block
  before the big product —, and at the last it adds the bias row and writes the block back. The casts to bfloat16 ahead
  of the products are the identity on extended reals, and a product into a zero accumulator is a plain sum.

  So entry (b, s, o) of the kernel's result is the FUSED form Σ_k Σ_j x(c) · (W(o, c) + Σ_r B(o, r) · A(r, c)) + bias(o) over
  the columns c = 256·k + j, and the reference's is the SPLIT form (Σ_i x(i) · W(o, i) + bias(o)) + Σ_r (Σ_i x(i) · A(r, i)) · B(o, r).
  They agree because the slices tile the columns and multiplication distributes over the sum W + B·A; distributivity
  fails at the infinities of the extended reals, so this is where the precondition (every input entry finite, hence a
  real number) is used.

  The three programs terminate without fault and leave their arguments unchanged: the two kernels by their frame
  certificates, the reference by its run. The idealized kernel is the kernel's own text read at the ideal values: the
  ideal pass rewrote nothing.
-/
import proofs.«167484_j45260365365949_1_alg».proof.Defs
import proofs.«167484_j45260365365949_1_alg».proof.Proof.Gen.Kernel
import proofs.«167484_j45260365365949_1_alg».proof.Proof.Gen.Kernel.Skeleton
import proofs.«167484_j45260365365949_1_alg».proof.Proof.Gen.Kernel.Launch
import proofs.«167484_j45260365365949_1_alg».proof.Proof.Gen.Kernel.Points
import proofs.«167484_j45260365365949_1_alg».proof.Proof.Gen.Kernel.Frame
import proofs.«167484_j45260365365949_1_alg».proof.Proof.Gen.KernelIdeal
import proofs.«167484_j45260365365949_1_alg».proof.Proof.Gen.KernelIdeal.Skeleton
import proofs.«167484_j45260365365949_1_alg».proof.Proof.Gen.KernelIdeal.Launch
import proofs.«167484_j45260365365949_1_alg».proof.Proof.Gen.KernelIdeal.Points
import proofs.«167484_j45260365365949_1_alg».proof.Proof.Gen.KernelIdeal.Frame
import proofs.«167484_j45260365365949_1_alg».proof.Proof.Gen.ReferenceIdeal
import proofs.«167484_j45260365365949_1_alg».proof.Proof.Gen.ReferenceIdeal.Run
import proofs.«167484_j45260365365949_1_alg».proof.Proof.Gen.ReferenceIdeal.Read
import proofs.«167484_j45260365365949_1_alg».proof.Proof.Gen.Pre_finite_inputs
import proofs.«167484_j45260365365949_1_alg».proof.Proof.KernelValue
import proofs.«167484_j45260365365949_1_alg».proof.Proof.RefValue
import proofs.«167484_j45260365365949_1_alg».proof.Proof.Finite
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_kernel : Cert.frame_Kernel := fun m ρ _ => Cert.Kernel.Gen.frame m ρ

/-- So does its reading at the ideal values. -/
theorem frame_kernelIdeal : Cert.frame_KernelIdeal := fun m ρ _ => Cert.KernelIdeal.Gen.frame m ρ

/-- The reference runs and keeps its arguments: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the same result: the kernel's run ends at the fused form of the arguments, the reference's at
    the split form of arguments that agree, and on finite arguments the two forms are one array. -/
theorem algebraic : Cert.algebraic_KernelIdeal_ReferenceIdeal := by
  intro m ρ m' ρ' hpre hagree
  refine ⟨fun c => Cert.LoraSpec.fusedForm (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  obtain ⟨hX, hW, hb, hA, hB⟩ := Cert.Pre_finite_inputs.Finite.reals_of_pre _ _ _ _ _ (hpre c)
  rw [Cert.ReferenceIdeal.Read.val_main_v6_eq, Cert.ReferenceIdeal.RefValue.result_eq, (hagree c).1, (hagree c).2.1,
    (hagree c).2.2.1, (hagree c).2.2.2.1, (hagree c).2.2.2.2]
  exact (Cert.LoraSpec.fusedForm_eq_splitForm hX hW hb hA hB).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
